-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S2048x32 : Shape := ⟨2, ![2048, 32]⟩
abbrev S1024x32 : Shape := ⟨2, ![1024, 32]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S2048x32 : S_.BroadcastsInDim S2048x32 (![] : Fin 0 → Fin S2048x32.rank)
  reducesTo_S2048x32_S_d0_1 : S2048x32.ReducesTo [0, 1] S_
  bcast_S_S1024x32 : S_.BroadcastsInDim S1024x32 (![] : Fin 0 → Fin S1024x32.rank)
  reducesTo_S1024x32_S_d0_1 : S1024x32.ReducesTo [0, 1] S_

variable [Facts]

def fn_part1 {F : FTy → Type} [FloatOps F] (main_v13 : IVec S_ 1) (main_v16 : IVec S1024x32 1) : IVec S_ 1 :=
  let main_c_5 : IVec S_ 1 := constantI S_ 1 1#1
  let main_v17 : IVec S_ 1 := (fun x v => Host.reduce IntOp.andi x v reducesTo_S1024x32_S_d0_1 h_S_) main_v16 main_c_5
  let main_v18 : IVec S_ 1 := andi main_v13 main_v17
  main_v18

def fn {F : FTy → Type} [FloatOps F] (main_arg0 : FVec F S16x2048x1024 .f32) (main_arg1 : FVec F S2048x32 .f32) (main_arg2 : FVec F S1024x32 .f32) (main_arg3 : FVec F S1024x32 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S2048x32 .f32 := Host.absf main_arg1
  let main_cst_0 : FVec F S_ .f32 := constant S_ .f32 0x7F800000#32
  let main_v5 : FVec F S2048x32 .f32 := broadcastInDim S2048x32 ![] bcast_S_S2048x32 main_cst_0
  let main_v6 : IVec S2048x32 1 := cmpf .olt main_v4 main_v5
  let main_c_1 : IVec S_ 1 := constantI S_ 1 1#1
  let main_v7 : IVec S_ 1 := (fun x v => Host.reduce IntOp.andi x v reducesTo_S2048x32_S_d0_1 h_S_) main_v6 main_c_1
  let main_v8 : IVec S_ 1 := andi main_v3 main_v7
  let main_v9 : FVec F S1024x32 .f32 := Host.absf main_arg2
  let main_cst_2 : FVec F S_ .f32 := constant S_ .f32 0x7F800000#32
  let main_v10 : FVec F S1024x32 .f32 := broadcastInDim S1024x32 ![] bcast_S_S1024x32 main_cst_2
  let main_v11 : IVec S1024x32 1 := cmpf .olt main_v9 main_v10
  let main_c_3 : IVec S_ 1 := constantI S_ 1 1#1
  let main_v12 : IVec S_ 1 := (fun x v => Host.reduce IntOp.andi x v reducesTo_S1024x32_S_d0_1 h_S_) main_v11 main_c_3
  let main_v13 : IVec S_ 1 := andi main_v8 main_v12
  let main_v14 : FVec F S1024x32 .f32 := Host.absf main_arg3
  let main_cst_4 : FVec F S_ .f32 := constant S_ .f32 0x7F800000#32
  let main_v15 : FVec F S1024x32 .f32 := broadcastInDim S1024x32 ![] bcast_S_S1024x32 main_cst_4
  let main_v16 : IVec S1024x32 1 := cmpf .olt main_v14 main_v15
  fn_part1 (F := F) main_v13 main_v16
-- ==== Kernel.lean ====
abbrev S16x2048x1024 : Shape := ⟨3, ![16, 2048, 1024]⟩
abbrev S2048x32 : Shape := ⟨2, ![2048, 32]⟩
abbrev S1024x32 : Shape := ⟨2, ![1024, 32]⟩
abbrev S1x1024x1024 : Shape := ⟨3, ![1, 1024, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S2048x32, .f32⟩
  | .hbm, ⟨2, _⟩ => ⟨S1024x32, .f32⟩
  | .hbm, ⟨3, _⟩ => ⟨S1024x32, .f32⟩
  | .hbm, ⟨4, _⟩ => ⟨S1024x32, .bf16⟩
  | .hbm, ⟨5, _⟩ => ⟨S1024x32, .bf16⟩
  | .hbm, ⟨6, _⟩ => ⟨S2048x32, .bf16⟩
  | .hbm, ⟨7, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x32, .bf16⟩
  | .local _ .vmem, ⟨3, _⟩ => ⟨S1024x32, .bf16⟩
  | .local _ .vmem, ⟨4, _⟩ => ⟨S1024x32, .bf16⟩
  | .local _ .vmem, ⟨5, _⟩ => ⟨S1024x32, .bf16⟩
  | .local _ .vmem, ⟨6, _⟩ => ⟨S1x1024x1024, .f32⟩
  | .local _ .vmem, ⟨7, _⟩ => ⟨S1x1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  shapeCasts_S1024x1024_S1x1024x1024 : S1024x1024.ShapeCasts S1x1024x1024
  dot_S1024x1024_S1024x32_S1024x32_1_0_0_1_n_n_wf : DotDims.WF S1024x1024 S1024x32 S1024x32 [1] [0] [0] [1] [] []
  dot_S1024x32_S1024x32_S1024x1024_1_1_0_0_n_n_wf : DotDims.WF S1024x32 S1024x32 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x2048x1024.size a
  hwx0_0 : ∀ i : grid0.Coords, EltTy.bits .f32 = 32 ∨ (Rect.block (s := S16x2048x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x32.size a ≤ S1024x32.size a
  hwx0_1 : ∀ i : grid0.Coords, EltTy.bits .bf16 = 32 ∨ (Rect.block (s := S1024x32) S1024x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S2048x32.size a
  hwx0_2 : ∀ i : grid0.Coords, EltTy.bits .bf16 = 32 ∨ (Rect.block (s := S2048x32) S1024x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S1024x32.size a
  hwx0_3 : ∀ i : grid0.Coords, EltTy.bits .bf16 = 32 ∨ (Rect.block (s := S1024x32) S1024x32.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S16x2048x1024.size a
  hwx0_4 : ∀ i : grid0.Coords, EltTy.bits .f32 = 32 ∨ (Rect.block (s := S16x2048x1024) S1x1024x1024.size (cc0_transform_4 i) (hinb0_4 i)).WholeWords (EltTy.packing .f32)

variable [Facts₀]

def dot_S1024x1024_S1024x32_S1024x32_1_0_0_1_n_n : DotDims S1024x1024 S1024x32 S1024x32 where
  lhsContracting := [1]
  rhsContracting := [0]
  lhsNonContracting := [0]
  rhsNonContracting := [1]
  lhsBatch := []
  rhsBatch := []
  wf := dot_S1024x1024_S1024x32_S1024x32_1_0_0_1_n_n_wf
def dot_S1024x32_S1024x32_S1024x1024_1_1_0_0_n_n : DotDims S1024x32 S1024x32 S1024x1024 where
  lhsContracting := [1]
  rhsContracting := [1]
  lhsNonContracting := [0]
  rhsNonContracting := [0]
  lhsBatch := []
  rhsBatch := []
  wf := dot_S1024x32_S1024x32_S1024x1024_1_1_0_0_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S2048x32 : Shape := ⟨2, ![2048, 32]⟩
abbrev S1024x32 : Shape := ⟨2, ![1024, 32]⟩
abbrev S16x2048x32 : Shape := ⟨3, ![16, 2048, 32]⟩
abbrev S1x2048x32 : Shape := ⟨3, ![1, 2048, 32]⟩

abbrev nBuf : Space → Nat
  | .hbm => 9
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2048x32, .f32⟩
  | .hbm, ⟨2, _⟩ => ⟨S1024x32, .f32⟩
  | .hbm, ⟨3, _⟩ => ⟨S1024x32, .f32⟩
  | .hbm, ⟨4, _⟩ => ⟨S16x2048x32, .f32⟩
  | .hbm, ⟨5, _⟩ => ⟨S1x2048x32, .f32⟩
  | .hbm, ⟨6, _⟩ => ⟨S16x2048x32, .f32⟩
  | .hbm, ⟨7, _⟩ => ⟨S16x2048x32, .f32⟩
  | .hbm, ⟨8, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S2048x32_S1x2048x32_1_2 : S2048x32.BroadcastsInDim S1x2048x32 (![1, 2] : Fin 2 → Fin S1x2048x32.rank)
  bcast_S1x2048x32_S16x2048x32_0_1_2 : S1x2048x32.BroadcastsInDim S16x2048x32 (![0, 1, 2] : Fin 3 → Fin S16x2048x32.rank)
  dot_S16x2048x1024_S1024x32_S16x2048x32_2_0_01_1_n_n_wf : DotDims.WF S16x2048x1024 S1024x32 S16x2048x32 [2] [0] [0, 1] [1] [] []
  dot_S16x2048x32_S1024x32_S16x2048x1024_2_1_01_0_n_n_wf : DotDims.WF S16x2048x32 S1024x32 S16x2048x1024 [2] [1] [0, 1] [0] [] []

variable [Facts₀]

def dot_S16x2048x1024_S1024x32_S16x2048x32_2_0_01_1_n_n : DotDims S16x2048x1024 S1024x32 S16x2048x32 where
  lhsContracting := [2]
  rhsContracting := [0]
  lhsNonContracting := [0, 1]
  rhsNonContracting := [1]
  lhsBatch := []
  rhsBatch := []
  wf := dot_S16x2048x1024_S1024x32_S16x2048x32_2_0_01_1_n_n_wf
def dot_S16x2048x32_S1024x32_S16x2048x1024_2_1_01_0_n_n : DotDims S16x2048x32 S1024x32 S16x2048x1024 where
  lhsContracting := [2]
  rhsContracting := [1]
  lhsNonContracting := [0, 1]
  rhsNonContracting := [0]
  lhsBatch := []
  rhsBatch := []
  wf := dot_S16x2048x32_S1024x32_S16x2048x1024_2_1_01_0_n_n_wf

class Facts : Prop extends Facts₀ where

variable [Facts]
-- ==== Proof.TileBody.lean ====
/-
  What the kernel body writes into its output tile, read at one index, on the extended reals.

  The body loads a row tile x : [1, 1024, 1024] of the input, the whole W_y : [1024, 32], the matching row tile
  w : [1024, 32] of W_x and the whole W_z : [1024, 32], and stores

      tile[0, r, k] = ∑ f, ((∑ j, x[0, r, j] · W_y[j, f]) · w[r, f]) · W_z[k, f].

  Both products accumulate into a zero constant, so each is the plain sum over its one contracted axis; the changes of
  float format between them are the identity on the extended reals, and the shape casts only add or drop the leading
  unit axis.
-/
import proofs.«132433_j22634477650317_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## The first product: a row of the x tile against a column of W_y -/

theorem lhs_xy_0 (i : S1024x32.Idx) (q : dot_S1024x1024_S1024x32_S1024x32_1_0_0_1_n_n.contr.Idx) :
    (dot_S1024x1024_S1024x32_S1024x32_1_0_0_1_n_n.lhsIdx i q 0).val = (i 0).val := by
  unfold DotDims.lhsIdx
  rw [dif_neg (show ¬(0 : Fin S1024x1024.rank) ∈ dot_S1024x1024_S1024x32_S1024x32_1_0_0_1_n_n.lhsBatch by decide), dif_pos (show (0 : Fin S1024x1024.rank) ∈ dot_S1024x1024_S1024x32_S1024x32_1_0_0_1_n_n.lhsNonContracting by decide)]
  rfl
theorem lhs_xy_1 (i : S1024x32.Idx) (q : dot_S1024x1024_S1024x32_S1024x32_1_0_0_1_n_n.contr.Idx) :
    (dot_S1024x1024_S1024x32_S1024x32_1_0_0_1_n_n.lhsIdx i q 1).val = (q ⟨0, by decide⟩).val :=
  dot_S1024x1024_S1024x32_S1024x32_1_0_0_1_n_n.lhsIdx_val_of_single rfl i q
theorem rhs_xy_0 (i : S1024x32.Idx) (q : dot_S1024x1024_S1024x32_S1024x32_1_0_0_1_n_n.contr.Idx) :
    (dot_S1024x1024_S1024x32_S1024x32_1_0_0_1_n_n.rhsIdx i q 0).val = (q ⟨0, by decide⟩).val :=
  dot_S1024x1024_S1024x32_S1024x32_1_0_0_1_n_n.rhsIdx_val_of_single rfl i q
theorem rhs_xy_1 (i : S1024x32.Idx) (q : dot_S1024x1024_S1024x32_S1024x32_1_0_0_1_n_n.contr.Idx) :
    (dot_S1024x1024_S1024x32_S1024x32_1_0_0_1_n_n.rhsIdx i q 1).val = (i 1).val := by
  unfold DotDims.rhsIdx
  rw [dif_neg (show ¬(1 : Fin S1024x32.rank) ∈ dot_S1024x1024_S1024x32_S1024x32_1_0_0_1_n_n.rhsBatch by decide), dif_pos (show (1 : Fin S1024x32.rank) ∈ dot_S1024x1024_S1024x32_S1024x32_1_0_0_1_n_n.rhsNonContracting by decide)]
  rfl

/-- Entry (r, f) of the first product is `∑ j, a[r, j] · b[j, f]`. -/
theorem xy_apply (a : S1024x1024.Idx → EReal) (b : S1024x32.Idx → EReal) (r : Fin 1024) (f : Fin 32) :
    matmul (F := Ideal) (φ₁ := .bf16) (φ₂ := .bf16) dot_S1024x1024_S1024x32_S1024x32_1_0_0_1_n_n none a b (constant (F := Ideal) S1024x32 .f32 0x00000000#32) (ix2 r f)
      = ∑ j : Fin 1024, a (ix2 r j) * b (ix2 j f) := by
  simp only [matmul]
  rw [Ideal.matmul_constant_zero_apply, ← Equiv.sum_comp (contrEquiv1 dot_S1024x1024_S1024x32_S1024x32_1_0_0_1_n_n 1024 rfl rfl).symm]
  refine Finset.sum_congr rfl fun k _ => ?_
  have hk := contrEquiv1_symm_val dot_S1024x1024_S1024x32_S1024x32_1_0_0_1_n_n 1024 rfl rfl k
  have el : dot_S1024x1024_S1024x32_S1024x32_1_0_0_1_n_n.lhsIdx (ix2 r f) ((contrEquiv1 dot_S1024x1024_S1024x32_S1024x32_1_0_0_1_n_n 1024 rfl rfl).symm k) = ix2 r k := funext fun a => Fin.ext (by
    match a with
    | ⟨0, _⟩ => exact lhs_xy_0 _ _
    | ⟨1, _⟩ => exact (lhs_xy_1 _ _).trans hk)
  have er : dot_S1024x1024_S1024x32_S1024x32_1_0_0_1_n_n.rhsIdx (ix2 r f) ((contrEquiv1 dot_S1024x1024_S1024x32_S1024x32_1_0_0_1_n_n 1024 rfl rfl).symm k) = ix2 k f := funext fun a => Fin.ext (by
    match a with
    | ⟨0, _⟩ => exact (rhs_xy_0 _ _).trans hk
    | ⟨1, _⟩ => exact rhs_xy_1 _ _)
  rw [el, er]

/-! ## The second product: a row of the gated intermediate against a row of W_z -/

theorem lhs_tz_0 (i : S1024x1024.Idx) (q : dot_S1024x32_S1024x32_S1024x1024_1_1_0_0_n_n.contr.Idx) :
    (dot_S1024x32_S1024x32_S1024x1024_1_1_0_0_n_n.lhsIdx i q 0).val = (i 0).val := by
  unfold DotDims.lhsIdx
  rw [dif_neg (show ¬(0 : Fin S1024x32.rank) ∈ dot_S1024x32_S1024x32_S1024x1024_1_1_0_0_n_n.lhsBatch by decide), dif_pos (show (0 : Fin S1024x32.rank) ∈ dot_S1024x32_S1024x32_S1024x1024_1_1_0_0_n_n.lhsNonContracting by decide)]
  rfl
theorem lhs_tz_1 (i : S1024x1024.Idx) (q : dot_S1024x32_S1024x32_S1024x1024_1_1_0_0_n_n.contr.Idx) :
    (dot_S1024x32_S1024x32_S1024x1024_1_1_0_0_n_n.lhsIdx i q 1).val = (q ⟨0, by decide⟩).val :=
  dot_S1024x32_S1024x32_S1024x1024_1_1_0_0_n_n.lhsIdx_val_of_single rfl i q
theorem rhs_tz_0 (i : S1024x1024.Idx) (q : dot_S1024x32_S1024x32_S1024x1024_1_1_0_0_n_n.contr.Idx) :
    (dot_S1024x32_S1024x32_S1024x1024_1_1_0_0_n_n.rhsIdx i q 0).val = (i 1).val := by
  unfold DotDims.rhsIdx
  rw [dif_neg (show ¬(0 : Fin S1024x32.rank) ∈ dot_S1024x32_S1024x32_S1024x1024_1_1_0_0_n_n.rhsBatch by decide), dif_pos (show (0 : Fin S1024x32.rank) ∈ dot_S1024x32_S1024x32_S1024x1024_1_1_0_0_n_n.rhsNonContracting by decide)]
  rfl
theorem rhs_tz_1 (i : S1024x1024.Idx) (q : dot_S1024x32_S1024x32_S1024x1024_1_1_0_0_n_n.contr.Idx) :
    (dot_S1024x32_S1024x32_S1024x1024_1_1_0_0_n_n.rhsIdx i q 1).val = (q ⟨0, by decide⟩).val :=
  dot_S1024x32_S1024x32_S1024x1024_1_1_0_0_n_n.rhsIdx_val_of_single rfl i q

/-- Entry (r, k) of the second product is `∑ f, a[r, f] · b[k, f]`: both operands are contracted on their last axis. -/
theorem tz_apply (a b : S1024x32.Idx → EReal) (r k : Fin 1024) :
    matmul (F := Ideal) (φ₁ := .bf16) (φ₂ := .bf16) dot_S1024x32_S1024x32_S1024x1024_1_1_0_0_n_n none a b (constant (F := Ideal) S1024x1024 .f32 0x00000000#32) (ix2 r k)
      = ∑ f : Fin 32, a (ix2 r f) * b (ix2 k f) := by
  simp only [matmul]
  rw [Ideal.matmul_constant_zero_apply, ← Equiv.sum_comp (contrEquiv1 dot_S1024x32_S1024x32_S1024x1024_1_1_0_0_n_n 32 rfl rfl).symm]
  refine Finset.sum_congr rfl fun f _ => ?_
  have hf := contrEquiv1_symm_val dot_S1024x32_S1024x32_S1024x1024_1_1_0_0_n_n 32 rfl rfl f
  have el : dot_S1024x32_S1024x32_S1024x1024_1_1_0_0_n_n.lhsIdx (ix2 r k) ((contrEquiv1 dot_S1024x32_S1024x32_S1024x1024_1_1_0_0_n_n 32 rfl rfl).symm f) = ix2 r f := funext fun a => Fin.ext (by
    match a with
    | ⟨0, _⟩ => exact lhs_tz_0 _ _
    | ⟨1, _⟩ => exact (lhs_tz_1 _ _).trans hf)
  have er : dot_S1024x32_S1024x32_S1024x1024_1_1_0_0_n_n.rhsIdx (ix2 r k) ((contrEquiv1 dot_S1024x32_S1024x32_S1024x1024_1_1_0_0_n_n 32 rfl rfl).symm f) = ix2 k f := funext fun a => Fin.ext (by
    match a with
    | ⟨0, _⟩ => exact rhs_tz_0 _ _
    | ⟨1, _⟩ => exact (rhs_tz_1 _ _).trans hf)
  rw [el, er]

/-! ## The stored tile -/

/-- The body's stored value as one term of its four loads. -/
theorem stored_eq (x0 : S1x1024x1024.Idx → EReal) (x1 x2 x3 : S1024x32.Idx → EReal) :
    k0_pay1 (F := Ideal) x0 x1 x2 x3
      = shapeCast S1x1024x1024
          (matmul (F := Ideal) (φ₁ := .bf16) (φ₂ := .bf16) dot_S1024x32_S1024x32_S1024x1024_1_1_0_0_n_n none
            (truncf (F := Ideal) (φ := .f32) .bf16
              (mulf (F := Ideal) (φ := .f32)
                (matmul (F := Ideal) (φ₁ := .bf16) (φ₂ := .bf16) dot_S1024x1024_S1024x32_S1024x32_1_0_0_1_n_n none
                  (truncf (F := Ideal) (φ := .f32) .bf16 (shapeCast S1024x1024 x0 shapeCasts_S1x1024x1024_S1024x1024) bitsLt_bf16_f32)
                  (shapeCast S1024x32 x1 shapeCasts_S1024x32_S1024x32)
                  (constant (F := Ideal) S1024x32 .f32 0x00000000#32))
                (extf (F := Ideal) (φ := .bf16) .f32 (shapeCast S1024x32 x2 shapeCasts_S1024x32_S1024x32) bitsLt_bf16_f32))
              bitsLt_bf16_f32)
            (shapeCast S1024x32 x3 shapeCasts_S1024x32_S1024x32)
            (constant (F := Ideal) S1024x1024 .f32 0x00000000#32))
          shapeCasts_S1024x1024_S1x1024x1024 := rfl

/-- The stored tile at (u, r, k): the two contractions, with the gate between them. -/
theorem stored_apply (x0 : S1x1024x1024.Idx → EReal) (x1 x2 x3 : S1024x32.Idx → EReal) (u : Fin 1) (r k : Fin 1024) :
    k0_pay1 (F := Ideal) x0 x1 x2 x3 (ix3 u r k)
      = ∑ f : Fin 32, ((∑ j : Fin 1024, x0 (ix3 (0 : Fin 1) r j) * x1 (ix2 j f)) * x2 (ix2 r f)) * x3 (ix2 k f) := by
  rw [stored_eq, shapeCast_ab_1ab_apply, tz_apply]
  refine Finset.sum_congr rfl fun f _ => ?_
  rw [truncf_apply, mulf_apply, xy_apply, extf_apply]
  simp only [truncf_apply, shapeCast_self, shapeCast_1ab_ab_apply]

end Cert.KernelIdeal.Tile

end
-- ==== Proof.TwoStage.lean ====
/-
  The function both programs compute, on the extended reals. With x : [16, 2048, 1024], W_x : [2048, 32] and
  W_y, W_z : [1024, 32],

      t[b, i, f]   = (∑ j, x[b, i, j] · W_y[j, f]) · W_x[i, f]          (contract the last axis of x, then gate by W_x)
      out[b, i, k] = ∑ f, t[b, i, f] · W_z[k, f]                         (contract the 32 features against W_z)

  No law of the extended reals beyond reading each contraction as a sum over its one index is used: the two programs
  compute this same expression, the kernel on row tiles of 1024 rows and the reference on the whole arrays.
-/
import Idealize.ShloMosaic.PureOps.Ideal
import Idealize.ShloMosaic.Lib.ValueIdx

noncomputable section

open scoped BigOperators

namespace Cert.TwoStage

open Idealize.ShloMosaic Idealize.ShloMosaic.ValueIdx

/-- The gated first contraction: `t[b, i, f] = (∑ j, x[b, i, j] · W_y[j, f]) · W_x[i, f]`. -/
def gated (x : (⟨3, ![16, 2048, 1024]⟩ : Shape).Idx → EReal) (wx : (⟨2, ![2048, 32]⟩ : Shape).Idx → EReal)
    (wy : (⟨2, ![1024, 32]⟩ : Shape).Idx → EReal) (b : Fin 16) (i : Fin 2048) (f : Fin 32) : EReal :=
  (∑ j : Fin 1024, x (ix3 b i j) * wy (ix2 j f)) * wx (ix2 i f)

/-- The result array: `out[b, i, k] = ∑ f, t[b, i, f] · W_z[k, f]`. -/
def out (x : (⟨3, ![16, 2048, 1024]⟩ : Shape).Idx → EReal) (wx : (⟨2, ![2048, 32]⟩ : Shape).Idx → EReal)
    (wy wz : (⟨2, ![1024, 32]⟩ : Shape).Idx → EReal) : (⟨3, ![16, 2048, 1024]⟩ : Shape).Idx → EReal :=
  fun i => ∑ f : Fin 32, gated x wx wy (i 0) (i 1) f * wz (ix2 (i 2) f)

/-- The result at an index given by its coordinates. -/
theorem out_ix3 (x : (⟨3, ![16, 2048, 1024]⟩ : Shape).Idx → EReal) (wx : (⟨2, ![2048, 32]⟩ : Shape).Idx → EReal)
    (wy wz : (⟨2, ![1024, 32]⟩ : Shape).Idx → EReal) (b : Fin 16) (i : Fin 2048) (k : Fin 1024) :
    out x wx wy wz (ix3 b i k) = ∑ f : Fin 32, gated x wx wy b i f * wz (ix2 k f) := rfl

end Cert.TwoStage

end
-- ==== Proof.Tiles.lean ====
/-
  From the row tiles to the whole array. The grid has 16 × 2 points; point (b, s) stages rows s·1024 … s·1024 + 1023 of
  batch b of x and of the output, the matching rows of W_x, and all of W_y and W_z (which the host has only changed in
  format, the identity on the extended reals). So the tile the body stores at a point is that block of `TwoStage.out`
  of the argument arrays, and the 32 blocks tile the output array: after the run it holds `TwoStage.out` everywhere.
-/
import proofs.«132433_j22634477650317_1_alg».proof.Proof.Gen.KernelIdeal.Value
import proofs.«132433_j22634477650317_1_alg».proof.Proof.TileBody
import proofs.«132433_j22634477650317_1_alg».proof.Proof.TwoStage
import Idealize.ShloMosaic.Lib.StableHlo.Run

set_option maxRecDepth 16384

noncomputable section

open scoped BigOperators

namespace Cert.KernelIdeal.Tile

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

/-! ## One stored entry, when the loaded tiles are blocks of the arrays -/

/-- If the four loaded tiles read the arrays X, W_x, W_y, W_z at the rows the array index I names, the stored entry at
    the tile index y is `TwoStage.out` at I. -/
theorem stored_is_out (X : S16x2048x1024.Idx → EReal) (WX : S2048x32.Idx → EReal) (WY WZ : S1024x32.Idx → EReal)
    (x0 : S1x1024x1024.Idx → EReal) (x1 x2 x3 : S1024x32.Idx → EReal) (y : S1x1024x1024.Idx) (I : S16x2048x1024.Idx)
    (h0 : ∀ j : Fin 1024, x0 (ix3 (0 : Fin 1) (y 1) j) = X (ix3 (I 0) (I 1) j))
    (h1 : ∀ (j : Fin 1024) (f : Fin 32), x1 (ix2 j f) = WY (ix2 j f))
    (h2 : ∀ f : Fin 32, x2 (ix2 (y 1) f) = WX (ix2 (I 1) f))
    (h3 : ∀ f : Fin 32, x3 (ix2 (y 2) f) = WZ (ix2 (I 2) f)) :
    k0_pay1 (F := Ideal) x0 x1 x2 x3 y = Cert.TwoStage.out X WX WY WZ I := by
  obtain ⟨u, r, k, rfl⟩ : ∃ (u : Fin 1) (r k : Fin 1024), y = ix3 u r k := ⟨y 0, y 1, y 2, eq_ix3 y⟩
  have h0' : ∀ j : Fin 1024, x0 (ix3 (0 : Fin 1) r j) = X (ix3 (I 0) (I 1) j) := h0
  have h2' : ∀ f : Fin 32, x2 (ix2 r f) = WX (ix2 (I 1) f) := h2
  have h3' : ∀ f : Fin 32, x3 (ix2 k f) = WZ (ix2 (I 2) f) := h3
  rw [stored_apply]
  unfold Cert.TwoStage.out Cert.TwoStage.gated
  refine Finset.sum_congr rfl fun f _ => ?_
  rw [h2' f, h3' f]
  simp only [h0', h1]

variable (m : (ℓ : Loc nD τ sig) → Buf (Elt Ideal) ℓ) (ρ : Dev nD → PrngReg)

/-! ## The arrays the host wrote before the region: W_y, W_z, W_x changed in format only -/

theorem V_wy (c : Dev nD) : (V m c main_v0 : S1024x32.Idx → EReal) = m ((c : Thread nD τ).loc main_arg2) := by
  dsimp only [V, hostOps0]; after_results; rfl
theorem V_wz (c : Dev nD) : (V m c main_v1 : S1024x32.Idx → EReal) = m ((c : Thread nD τ).loc main_arg3) := by
  dsimp only [V, hostOps0]; after_results; rfl
theorem V_wx (c : Dev nD) : (V m c main_v2 : S2048x32.Idx → EReal) = m ((c : Thread nD τ).loc main_arg1) := by
  dsimp only [V, hostOps0]; after_results; rfl

/-! ## The index maps over the grid -/

theorem hz3 : (![0, 0, 0] : Fin 3 → Nat) = fun _ => 0 := funext fun a => by fin_cases a <;> rfl
theorem hz2 : (![0, 0] : Fin 2 → Nat) = fun _ => 0 := funext fun a => by fin_cases a <;> rfl

/-- At every point the x tile sits at the output tile's batch and row block, the W_x tile at its row block, and W_y,
    W_z at block (0, 0); the output's last block index is 0. -/
theorem idx_facts : ∀ t : Fin cfg0.N,
    win0_0.index t (0 : Fin 3) = win0_4.index t (0 : Fin 3)
    ∧ win0_0.index t (1 : Fin 3) = win0_4.index t (1 : Fin 3)
    ∧ win0_0.index t (2 : Fin 3) = 0
    ∧ win0_1.index t (0 : Fin 2) = 0 ∧ win0_1.index t (1 : Fin 2) = 0
    ∧ win0_2.index t (0 : Fin 2) = win0_4.index t (1 : Fin 3) ∧ win0_2.index t (1 : Fin 2) = 0
    ∧ win0_3.index t (0 : Fin 2) = 0 ∧ win0_3.index t (1 : Fin 2) = 0
    ∧ win0_4.index t (2 : Fin 3) = 0 :=
  (by decide +kernel : ∀ t : Fin grid0.N, _)

/-- Every (batch, row block) is some point's output block. -/
theorem idx_onto : ∀ (q0 : Fin 16) (q1 : Fin 2), ∃ t : Fin cfg0.N, win0_4.index t = ![q0.val, q1.val, 0] :=
  (by decide +kernel : ∀ (q0 : Fin 16) (q1 : Fin 2), ∃ t : Fin grid0.N, win0_4.index t = ![q0.val, q1.val, 0])

/-! ## What a point writes back -/

/-- Point `t` writes back block `t` of `TwoStage.out` of the argument arrays. -/
theorem flushed_eq (c : Dev nD) (t : Fin cfg0.N) :
    (dats m 0 c).flushed 4 t = ((cfg0.win 4).blk t).view.read (Elt Ideal) (Cert.TwoStage.out (m ((c : Thread nD τ).loc main_arg0)) (m ((c : Thread nD τ).loc main_arg1)) (m ((c : Thread nD τ).loc main_arg2)) (m ((c : Thread nD τ).loc main_arg3))) := by
  rw [Cert.KernelIdeal.Value.flushed4]
  unfold out0_4
  rw [View.canon_unit_zero hz3]
  simp only [View.ld_unit_zero (S := S1x1024x1024) hz3, View.ld_unit_zero (S := S1024x32) hz2]
  obtain ⟨e00, e01, e02, e10, e11, e20, e21, e30, e31, e42⟩ := idx_facts t
  funext y
  have hy0 : (y 0).val < 1 := (y 0).isLt
  have hy1 : (y 1).val < 1024 := (y 1).isLt
  have hy2 : (y 2).val < 1024 := (y 2).isLt
  refine stored_is_out (m ((c : Thread nD τ).loc main_arg0)) (m ((c : Thread nD τ).loc main_arg1)) (m ((c : Thread nD τ).loc main_arg2)) (m ((c : Thread nD τ).loc main_arg3))
    (iblk m c 0 t) (iblk m c 1 t) (iblk m c 2 t) (iblk m c 3 t) ((cfg0.win 4).xinj (grid0.coords t) y)
    (((cfg0.win 4).blk t).view.emb y) ?_ ?_ ?_ ?_
  · intro j
    show V m c main_arg0 (((cfg0.win 0).blk t).view.emb (ix3 (0 : Fin 1) (y 1) j)) = _
    rw [V_main_arg0]
    refine congrArg _ (funext fun a => Fin.ext ?_)
    match a with
    | ⟨0, _⟩ => show win0_0.index t (0 : Fin 3) * 1 + 1 * 0 = win0_4.index t (0 : Fin 3) * 1 + 1 * (y 0).val; omega
    | ⟨1, _⟩ => show win0_0.index t (1 : Fin 3) * 1024 + 1 * (y 1).val = win0_4.index t (1 : Fin 3) * 1024 + 1 * (y 1).val; omega
    | ⟨2, _⟩ => show win0_0.index t (2 : Fin 3) * 1024 + 1 * j.val = j.val; omega
  · intro j f
    show V m c main_v0 (((cfg0.win 1).blk t).view.emb (ix2 j f)) = _
    rw [V_wy]
    refine congrArg _ (funext fun a => Fin.ext ?_)
    match a with
    | ⟨0, _⟩ => show win0_1.index t (0 : Fin 2) * 1024 + 1 * j.val = j.val; omega
    | ⟨1, _⟩ => show win0_1.index t (1 : Fin 2) * 32 + 1 * f.val = f.val; omega
  · intro f
    show V m c main_v2 (((cfg0.win 2).blk t).view.emb (ix2 (y 1) f)) = _
    rw [V_wx]
    refine congrArg _ (funext fun a => Fin.ext ?_)
    match a with
    | ⟨0, _⟩ => show win0_2.index t (0 : Fin 2) * 1024 + 1 * (y 1).val = win0_4.index t (1 : Fin 3) * 1024 + 1 * (y 1).val; omega
    | ⟨1, _⟩ => show win0_2.index t (1 : Fin 2) * 32 + 1 * f.val = f.val; omega
  · intro f
    show V m c main_v1 (((cfg0.win 3).blk t).view.emb (ix2 (y 2) f)) = _
    rw [V_wz]
    refine congrArg _ (funext fun a => Fin.ext ?_)
    match a with
    | ⟨0, _⟩ => show win0_3.index t (0 : Fin 2) * 1024 + 1 * (y 2).val = win0_4.index t (2 : Fin 3) * 1024 + 1 * (y 2).val; omega
    | ⟨1, _⟩ => show win0_3.index t (1 : Fin 2) * 32 + 1 * f.val = f.val; omega

/-! ## The blocks tile the output array -/

/-- An index of the array is in point `t`'s block iff each coordinate is in the block's range on its axis. -/
theorem mem_blk (t : Fin cfg0.N) (i : S16x2048x1024.Idx) :
    i ∈ ((cfg0.win 4).blk t).view.set ↔ ∀ a : Fin 3, win0_4.index t a * S1x1024x1024.size a ≤ (i a).val ∧ (i a).val < win0_4.index t a * S1x1024x1024.size a + S1x1024x1024.size a := by
  show i ∈ ((View.whole main_v3).slice (win0_4.rect t)).set ↔ _
  rw [View.set_slice_whole, Rect.mem_set_unit]
  exact Iff.rfl

/-- Row i₁ of batch i₀ lies in the block of the point at (i₀, i₁ / 1024). -/
theorem covered (i : S16x2048x1024.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 1024 := (i 2).isLt
  obtain ⟨t, ht⟩ := idx_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 1024 ≤ (i 2).val ∧ (i 2).val < win0_4.index t (2 : Fin 3) * 1024 + 1024; omega

/-- The output array after the run. -/
theorem final (c : Dev nD) : (dats m 0 c).arrAt 4 cfg0.N = (Cert.TwoStage.out (m ((c : Thread nD τ).loc main_arg0)) (m ((c : Thread nD τ).loc main_arg1)) (m ((c : Thread nD τ).loc main_arg2)) (m ((c : Thread nD τ).loc main_arg3))) :=
  (dats m 0 c).arrAt_eq_of_cover 4 _ (fun t _ => flushed_eq m c t) covered

/-! ## The run, read -/

/-- Every weakly fair execution of the idealized kernel ends with the output array at `TwoStage.out` of the argument
    arrays, and the arguments unchanged. -/
theorem run : θ_run defs (onTc (τ := τ) (main (F := Ideal))) ⟨m, fun _ => 0, ρ⟩ fun r => ∀ c : Dev nD,
      r.2.mem ((c : Thread nD τ).loc main_v3) = (Cert.TwoStage.out (m ((c : Thread nD τ).loc main_arg0)) (m ((c : Thread nD τ).loc main_arg1)) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Tile

end
-- ==== Proof.RefSide.lean ====
/-
  The reference computes `TwoStage.out`: its five host operations, read one at a time at an index, are the first
  contraction over the last axis of x against W_y, the gate W_x broadcast along the batch axis, their product, and
  the contraction of the 32 features against W_z.
-/
import proofs.«132433_j22634477650317_1_alg».proof.Proof.Gen.ReferenceIdeal.Run
import proofs.«132433_j22634477650317_1_alg».proof.Proof.Gen.ReferenceIdeal.Read
import proofs.«132433_j22634477650317_1_alg».proof.Proof.TwoStage

noncomputable section

open scoped BigOperators

namespace Cert.ReferenceIdeal.RefValue

open Cert.ReferenceIdeal Cert.ReferenceIdeal.Read Idealize.ShloMosaic Idealize.ShloMosaic.ValueIdx

/-- The reference's last stage is `TwoStage.out` of the four argument arrays. -/
theorem stage_eq (x0 : S16x2048x1024.Idx → EReal) (x1 : S2048x32.Idx → EReal) (x2 x3 : S1024x32.Idx → EReal) :
    val_main_v4 (F := Ideal) x0 x1 x2 x3 = Cert.TwoStage.out x0 x1 x2 x3 := by
  funext i
  rw [val_main_v4_apply]
  unfold Cert.TwoStage.out Cert.TwoStage.gated
  refine Finset.sum_congr rfl fun f _ => ?_
  rw [val_main_v3_apply, val_main_v0_apply, val_main_v2_apply, val_main_v1_apply]
  have e0 : ∀ j : Fin 1024, lidx_main_v0 (lidx_main_v4 i f) j = ix3 (i 0) (i 1) j := fun j => funext fun a => Fin.ext (by
    match a with
    | ⟨0, _⟩ => rfl
    | ⟨1, _⟩ => rfl
    | ⟨2, _⟩ => rfl)
  have e1 : ∀ j : Fin 1024, ridx_main_v0 (lidx_main_v4 i f) j = ix2 j f := fun j => funext fun a => Fin.ext (by
    match a with
    | ⟨0, _⟩ => rfl
    | ⟨1, _⟩ => rfl)
  have e2 : idx_main_v1 (idx_main_v2 (lidx_main_v4 i f)) = ix2 (i 1) f := funext fun a => Fin.ext (by
    match a with
    | ⟨0, _⟩ => rfl
    | ⟨1, _⟩ => rfl)
  have e3 : ridx_main_v4 i f = ix2 (i 2) f := funext fun a => Fin.ext (by
    match a with
    | ⟨0, _⟩ => rfl
    | ⟨1, _⟩ => rfl)
  simp only [e0, e1, e2, e3]
  rfl

end Cert.ReferenceIdeal.RefValue

end
-- ==== Proof.lean ====
/-
  The kernel and its reference compute one function on the extended reals,

      out[b, i, k] = ∑ f, ((∑ j, x[b, i, j] · W_y[j, f]) · W_x[i, f]) · W_z[k, f]            (Proof/TwoStage.lean),

  the kernel one tile of 1024 rows at a time over a 16 × 2 grid (Proof/TileBody.lean: one stored entry is the two
  contractions with the gate between them; Proof/Tiles.lean: each point writes its block of that function and the blocks
  tile the output), the reference by two whole-array contractions with a broadcast product between them
  (Proof/RefSide.lean). The changes of float format the kernel makes — on the host before the call and inside the body —
  are the identity on the extended reals, and both of its products accumulate into zero, so no algebraic law beyond
  reading each contraction as the sum over its one index is needed, and the precondition is never opened.

  The three frames: the kernel's two are its class-A frame certificates at the two instances; the reference has no kernel
  and its frame is its run with the result dropped. The idealization rewrote nothing, so `preserves` is `True`.
-/
import proofs.«132433_j22634477650317_1_alg».proof.Defs
import proofs.«132433_j22634477650317_1_alg».proof.Proof.Tiles
import proofs.«132433_j22634477650317_1_alg».proof.Proof.RefSide
import proofs.«132433_j22634477650317_1_alg».proof.Proof.Gen.Kernel
import proofs.«132433_j22634477650317_1_alg».proof.Proof.Gen.Kernel.Frame
import proofs.«132433_j22634477650317_1_alg».proof.Proof.Gen.KernelIdeal
import proofs.«132433_j22634477650317_1_alg».proof.Proof.Gen.KernelIdeal.Frame
import proofs.«132433_j22634477650317_1_alg».proof.Proof.Gen.ReferenceIdeal
import proofs.«132433_j22634477650317_1_alg».proof.Proof.Gen.ReferenceIdeal.Run
import proofs.«132433_j22634477650317_1_alg».proof.Proof.Gen.Pre_finite_inputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on the four arguments, end with the result array at `TwoStage.out` of the
    arguments: the kernel by its tiles, the reference by its five host operations read at an index. -/
theorem algebraic : Cert.algebraic_KernelIdeal_ReferenceIdeal := by
  intro m ρ m' ρ' _ hagree
  refine ⟨fun c => Cert.TwoStage.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v4_eq _ _ _ _).trans (Cert.ReferenceIdeal.RefValue.stage_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
